-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x1 : Shape := ⟨2, ![8192, 1]⟩
abbrev S4096x2048 : Shape := ⟨2, ![4096, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S4096x2048 .f32) (main_arg8 : FVec F S2048 .f32) (main_arg9 : FVec F S2048 .f32) (main_arg10 : FVec F S2048 .f32) (main_arg11 : FVec F S2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_v48 main_v49 main_v50

def fn_part1 {F : FTy → Type} [FloatOps F] (main_arg4 : FVec F S4096x2048 .f32) (main_arg5 : FVec F S4096x2048 .f32) (main_arg6 : FVec F S4096x2048 .f32) (main_arg7 : FVec F S4096x2048 .f32) (main_arg8 : FVec F S2048 .f32) (main_arg9 : FVec F S2048 .f32) (main_arg10 : FVec F S2048 .f32) (main_arg11 : FVec F S2048 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x2048 .f32) (main_arg1 : FVec F S8192x2048 .f32) (main_arg2 : FVec F S8192x2048 .f32) (main_arg3 : FVec F S8192x1 .f32) (main_arg4 : FVec F S4096x2048 .f32) (main_arg5 : FVec F S4096x2048 .f32) (main_arg6 : FVec F S4096x2048 .f32) (main_arg7 : FVec F S4096x2048 .f32) (main_arg8 : FVec F S2048 .f32) (main_arg9 : FVec F S2048 .f32) (main_arg10 : FVec F S2048 .f32) (main_arg11 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_arg5 main_arg6 main_arg7 main_arg8 main_arg9 main_arg10 main_arg11 main_v13 main_v16
-- ==== Kernel.lean ====
abbrev S8192x2048 : Shape := ⟨2, ![8192, 2048]⟩
abbrev S8192x1 : Shape := ⟨2, ![8192, 1]⟩
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S4096x256 : Shape := ⟨2, ![4096, 256]⟩
abbrev S1x256 : Shape := ⟨2, ![1, 256]⟩
abbrev S2048x256 : Shape := ⟨2, ![2048, 256]⟩

abbrev nBuf : Space → Nat
  | .hbm => 24
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S8192x2048, .bf16⟩
  | .hbm, ⟨13, _⟩ => ⟨S8192x2048, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S4096x2048, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  slices_S4096x256_o0_0_S2048x256 : S4096x256.Slices ![0, 0] S2048x256
  slices_S4096x256_o2048_0_S2048x256 : S4096x256.Slices ![2048, 0] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2048.size a
  hwx0_2 : ∀ i : grid0.Coords, EltTy.bits .f32 = 32 ∨ (Rect.block (s := S8192x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x2048.size a
  hwx0_3 : ∀ i : grid0.Coords, EltTy.bits .bf16 = 32 ∨ (Rect.block (s := S4096x2048) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x2048.size a
  hwx0_4 : ∀ i : grid0.Coords, EltTy.bits .bf16 = 32 ∨ (Rect.block (s := S4096x2048) S4096x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x2048.size a
  hwx0_5 : ∀ i : grid0.Coords, EltTy.bits .bf16 = 32 ∨ (Rect.block (s := S4096x2048) S4096x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S4096x2048.size a
  hwx0_6 : ∀ i : grid0.Coords, EltTy.bits .bf16 = 32 ∨ (Rect.block (s := S4096x2048) S4096x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x2048.size a
  hwx0_9 : ∀ i : grid0.Coords, EltTy.bits .f32 = 32 ∨ (Rect.block (s := S1x2048) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S8192x2048.size a
  hwx0_11 : ∀ i : grid0.Coords, EltTy.bits .f32 = 32 ∨ (Rect.block (s := S8192x2048) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S8192x2048.size a
  hwx0_12 : ∀ i : grid0.Coords, EltTy.bits .f32 = 32 ∨ (Rect.block (s := S8192x2048) S512x256.size (cc0_transform_12 i) (hinb0_12 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_0) S512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_1) S512x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x1 : Shape := ⟨2, ![8192, 1]⟩
abbrev S4096x2048 : Shape := ⟨2, ![4096, 2048]⟩
abbrev S2048 : Shape := ⟨1, ![2048]⟩
abbrev S8192x4096 : Shape := ⟨2, ![8192, 4096]⟩
abbrev S4096x8192 : Shape := ⟨2, ![4096, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S8192x4096, .f32⟩
  | .hbm, ⟨13, _⟩ => ⟨S4096x8192, .f32⟩
  | .hbm, ⟨14, _⟩ => ⟨S8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.CellSpec.lean ====
/-
  The LSTM cell as one function of its argument arrays, index by index, on the extended reals.

  For a batch row r and a hidden column n, a gate's pre-activation is
      z(r, n) = Σ_{k < 2048} x[r, k] · W[k, n]  +  Σ_{k < 2048} h[r, k] · W[2048 + k, n]  +  b[n],
  the input part and the recurrent part of the one weight matrix W : [4096, 2048] summed separately. The new cell
  state is  c' = c · σ(z_f) + σ(z_i) · tanh(z_c)  and the new hidden state  h' = σ(z_o) · tanh(c'), with
  σ(z) = 1 / (1 + e^(-z)).

  The same pre-activation is ONE sum over the 4096 rows of W against the row of x and h laid side by side
  (`gate_eq_joined`): a finite sum over Fin 4096 splits at 2048, which needs only that addition on the extended
  reals is commutative and associative — no finiteness of the entries.
-/
import Idealize.ShloMosaic.PureOps.Ideal
import Idealize.ShloMosaic.Lib.ValueIdx
import Mathlib.Algebra.BigOperators.Fin

noncomputable section

open scoped BigOperators
open Idealize.ShloMosaic Idealize.ShloMosaic.ValueIdx

namespace Cert.Cell

/-- [batch, feature]: x, h, c and both results. -/
abbrev SAct : Shape := ⟨2, ![8192, 2048]⟩
/-- [input + hidden, hidden]: one gate's weights, the input rows above the recurrent rows. -/
abbrev SWgt : Shape := ⟨2, ![4096, 2048]⟩
/-- [hidden]: one gate's bias. -/
abbrev SBias : Shape := ⟨1, ![2048]⟩

/-- Row k of the input part of a weight matrix. -/
abbrev upper (k : Fin 2048) : Fin 4096 := ⟨k.val, by omega⟩
/-- Row k of the recurrent part of a weight matrix. -/
abbrev lower (k : Fin 2048) : Fin 4096 := ⟨2048 + k.val, by omega⟩

/-- A sum over 4096 terms is the sum of its first 2048 and its last 2048. -/
theorem sum_split {M : Type*} [AddCommMonoid M] (f : Fin 4096 → M) :
    ∑ k : Fin 4096, f k = ∑ k : Fin 2048, f (upper k) + ∑ k : Fin 2048, f (lower k) :=
  Fin.sum_univ_add (a := 2048) (b := 2048) f

/-- A gate's pre-activation at batch row r and hidden column n. -/
def gate (X H : SAct.Idx → EReal) (W : SWgt.Idx → EReal) (b : SBias.Idx → EReal) (r : Fin 8192) (n : Fin 2048) : EReal :=
  (∑ k : Fin 2048, X (ix2 r k) * W (ix2 (upper k) n)) + (∑ k : Fin 2048, H (ix2 r k) * W (ix2 (lower k) n)) + b (ix1 n)

/-- The pre-activation as one contraction over the 4096 rows: any row vector `L` that is x's row on the first
    2048 places and h's row on the last 2048, against any column `R` that is W's column. -/
theorem gate_eq_joined (X H : SAct.Idx → EReal) (W : SWgt.Idx → EReal) (b : SBias.Idx → EReal) (r : Fin 8192) (n : Fin 2048)
    (L R : Fin 4096 → EReal) (hLu : ∀ k, L (upper k) = X (ix2 r k)) (hLl : ∀ k, L (lower k) = H (ix2 r k))
    (hR : ∀ k, R k = W (ix2 k n)) (β : EReal) (hβ : β = b (ix1 n)) :
    (∑ k : Fin 4096, L k * R k) + β = gate X H W b r n := by
  rw [sum_split, hβ]
  unfold gate
  simp only [hLu, hLl, hR]

/-- The new cell state. -/
def cellState (X H C : SAct.Idx → EReal) (Wf Wi Wc : SWgt.Idx → EReal) (bf bi bc : SBias.Idx → EReal) : SAct.Idx → EReal :=
  fun i => C i * Ideal.logistic (gate X H Wf bf (i 0) (i 1))
    + Ideal.logistic (gate X H Wi bi (i 0) (i 1)) * Ideal.tanh (gate X H Wc bc (i 0) (i 1))

/-- The new hidden state. -/
def hidden (X H C : SAct.Idx → EReal) (Wf Wi Wc Wo : SWgt.Idx → EReal) (bf bi bc bo : SBias.Idx → EReal) : SAct.Idx → EReal :=
  fun i => Ideal.logistic (gate X H Wo bo (i 0) (i 1)) * Ideal.tanh (cellState X H C Wf Wi Wc bf bi bc i)

/-- The cell state at (r, n), spelled over the three gates' pre-activations there. -/
theorem cellState_at (X H C : SAct.Idx → EReal) (Wf Wi Wc : SWgt.Idx → EReal) (bf bi bc : SBias.Idx → EReal) (r : Fin 8192) (n : Fin 2048) :
    cellState X H C Wf Wi Wc bf bi bc (ix2 r n)
      = C (ix2 r n) * Ideal.logistic (gate X H Wf bf r n) + Ideal.logistic (gate X H Wi bi r n) * Ideal.tanh (gate X H Wc bc r n) := rfl

/-- The hidden state at (r, n). -/
theorem hidden_at (X H C : SAct.Idx → EReal) (Wf Wi Wc Wo : SWgt.Idx → EReal) (bf bi bc bo : SBias.Idx → EReal) (r : Fin 8192) (n : Fin 2048) :
    hidden X H C Wf Wi Wc Wo bf bi bc bo (ix2 r n)
      = Ideal.logistic (gate X H Wo bo r n) * Ideal.tanh (cellState X H C Wf Wi Wc bf bi bc (ix2 r n)) := rfl

/-- σ(z) spelled out: one over one plus e^(-z), the quotient and the exponential being the extended reals' own. -/
theorem logistic_spelled (z : EReal) : Ideal.div 1 (1 + Ideal.exp (-z)) = Ideal.logistic z := rfl

end Cert.Cell

end
-- ==== Proof.KernelGate.lean ====
/-
  The kernel body's arithmetic, read at one element of an output block.

  At a grid point the body holds a [512, 2048] block of x, one of h, a [512, 256] block of c, and for each gate a
  [4096, 256] column block of the weights and a [1, 256] block of the bias. A gate's pre-activation block is the
  product of the x block with the upper 2048 weight rows plus the product of the h block with the lower 2048 rows
  plus the bias row: at (p, q) the two sums over k < 2048 (`preact`). The matrix unit starts from a zero
  accumulator, so each product is the plain sum; the slices of the weight block are its upper and lower halves.
-/
import proofs.«113594_j28845000360212_1_alg».proof.Proof.Gen.KernelIdeal.Skeleton
import proofs.«113594_j28845000360212_1_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.CellValue

open Cert.KernelIdeal Cert.KernelIdeal.Gen Idealize.ShloMosaic Idealize.ShloMosaic.TcCoe Idealize.SL.Sem Idealize.ShloMosaic.ValueIdx
open Cert.Cell (upper lower)

/-! ## The matrix product's operand indices -/

theorem lhs_mm_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_mm_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_mm_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_mm_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- A [512, 2048] × [2048, 256] product into a zero accumulator, at (p, q): the sum over the contracted axis. -/
theorem mm_apply (a : FVec Ideal S512x2048 .bf16) (b : FVec Ideal S2048x256 .bf16) (p : Fin 512) (q : Fin 256) :
    matmul dot_S512x2048_S2048x256_S512x256_1_0_0_1_n_n none a b (constant (F := Ideal) S512x256 .f32 0x00000000#32) (ix2 p q)
      = ∑ k : Fin 2048, a (ix2 p k) * b (ix2 k q) := by
  refine (Ideal.matmul_constant_zero_apply dot_S512x2048_S2048x256_S512x256_1_0_0_1_n_n none a b (ix2 p q)).trans ?_
  rw [← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p q) ((contrEquiv1 dot_S512x2048_S2048x256_S512x256_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S512x2048_S2048x256_S512x256_1_0_0_1_n_n.rhsIdx (ix2 p q) ((contrEquiv1 dot_S512x2048_S2048x256_S512x256_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

/-! ## The two halves of a weight block -/

/-- The upper half of a [4096, 256] weight block at (k, q) is the block at (k, q). -/
theorem upper_half (w : FVec Ideal S4096x256 .bf16) (k : Fin 2048) (q : Fin 256) :
    extractStridedSlice S2048x256 ![0, 0] w slices_S4096x256_o0_0_S2048x256 (ix2 k q)
      = w (ix2 (upper k) q) := by
  exact extractStridedSlice_apply ![0, 0] w slices_S4096x256_o0_0_S2048x256 (ix2 k q) (ix2 (upper k) q) (fun a => match a with
    | ⟨0, _⟩ => by show k.val = 0 + k.val; omega
    | ⟨1, _⟩ => by show q.val = 0 + q.val; omega)

/-- The lower half at (k, q) is the block at (2048 + k, q). -/
theorem lower_half (w : FVec Ideal S4096x256 .bf16) (k : Fin 2048) (q : Fin 256) :
    extractStridedSlice S2048x256 ![2048, 0] w slices_S4096x256_o2048_0_S2048x256 (ix2 k q)
      = w (ix2 (lower k) q) := by
  exact extractStridedSlice_apply ![2048, 0] w slices_S4096x256_o2048_0_S2048x256 (ix2 k q) (ix2 (lower k) q) (fun a => match a with
    | ⟨0, _⟩ => by show 2048 + k.val = 2048 + k.val; omega
    | ⟨1, _⟩ => by show q.val = 0 + q.val; omega)

/-- The bias row broadcast over the 512 rows of the block, at (p, q): the row's entry q. -/
theorem bias_row (b : FVec Ideal S1x256 .f32) (p : Fin 512) (q : Fin 256) :
    broadcastTo S512x256 (shapeCast S1x256 b shapeCasts_S1x256_S1x256) broadcasts_S1x256_S512x256 (ix2 p q) = b (ix2 (0 : Fin 1) q) := by
  rw [shapeCast_self]
  exact broadcastTo_1b_ab_apply b broadcasts_S1x256_S512x256 p q

/-! ## A gate's pre-activation block -/

/-- The x block against the upper weight rows plus the h block against the lower weight rows, at (p, q). -/
def preact (x h : FVec Ideal S512x2048 .bf16) (w : FVec Ideal S4096x256 .bf16) (p : Fin 512) (q : Fin 256) : EReal :=
  (∑ k : Fin 2048, x (ix2 p k) * w (ix2 (upper k) q)) + (∑ k : Fin 2048, h (ix2 p k) * w (ix2 (lower k) q))

/-- The two products of one gate, added, at (p, q). -/
theorem two_products (x h : FVec Ideal S512x2048 .bf16) (w : FVec Ideal S4096x256 .bf16) (p : Fin 512) (q : Fin 256) :
    addf (matmul dot_S512x2048_S2048x256_S512x256_1_0_0_1_n_n none (shapeCast S512x2048 x shapeCasts_S512x2048_S512x2048)
            (extractStridedSlice S2048x256 ![0, 0] (shapeCast S4096x256 w shapeCasts_S4096x256_S4096x256) slices_S4096x256_o0_0_S2048x256)
            (constant (F := Ideal) S512x256 .f32 0x00000000#32))
         (matmul dot_S512x2048_S2048x256_S512x256_1_0_0_1_n_n none (shapeCast S512x2048 h shapeCasts_S512x2048_S512x2048)
            (extractStridedSlice S2048x256 ![2048, 0] (shapeCast S4096x256 w shapeCasts_S4096x256_S4096x256) slices_S4096x256_o2048_0_S2048x256)
            (constant (F := Ideal) S512x256 .f32 0x00000000#32)) (ix2 p q)
      = preact x h w p q := by
  rw [addf_apply, mm_apply, mm_apply]
  unfold preact
  simp only [shapeCast_self, upper_half, lower_half]

/-- The forget gate's pre-activation block. -/
theorem pay5_apply (x h : FVec Ideal S512x2048 .bf16) (w : FVec Ideal S4096x256 .bf16) (b : FVec Ideal S1x256 .f32) (p : Fin 512) (q : Fin 256) :
    k0_pay5 (F := Ideal) x h w b (ix2 p q) = preact x h w p q + b (ix2 (0 : Fin 1) q) := by
  unfold k0_pay5 k0_pay3 k0_pay4
  rw [addf_apply, two_products, bias_row]

/-- The input gate's pre-activation block. -/
theorem pay6_apply (x h : FVec Ideal S512x2048 .bf16) (w : FVec Ideal S4096x256 .bf16) (b : FVec Ideal S1x256 .f32) (p : Fin 512) (q : Fin 256) :
    k0_pay6 (F := Ideal) x h w b (ix2 p q) = preact x h w p q + b (ix2 (0 : Fin 1) q) := by
  unfold k0_pay6 k0_pay3 k0_pay4
  rw [addf_apply, two_products, bias_row]

/-- The candidate's two products (its bias is added with the activations). -/
theorem pay7_apply (x h : FVec Ideal S512x2048 .bf16) (w : FVec Ideal S4096x256 .bf16) (p : Fin 512) (q : Fin 256) :
    k0_pay7 (F := Ideal) x h w (ix2 p q) = preact x h w p q := by
  unfold k0_pay7 k0_pay3 k0_pay4
  exact two_products x h w p q

end Cert.KernelIdeal.CellValue

end
-- ==== Proof.KernelBlock.lean ====
/-
  One element of the two output blocks as the cell's functions of the whole arrays.

  The body stores the new cell state  c · σ(z_f) + σ(z_i) · tanh(z_c)  and the new hidden state  σ(z_o) · tanh(c'),
  each z a pre-activation block. When the blocks the body holds are the rows and columns of the whole arrays that
  the output element (r, n) depends on — row r of x and h, column n of each weight matrix and bias, element (r, n)
  of c — the stored element is `Cell.cellState` / `Cell.hidden` of the whole arrays at (r, n).
-/
import proofs.«113594_j28845000360212_1_alg».proof.Proof.KernelGate

noncomputable section

open scoped BigOperators

namespace Cert.KernelIdeal.CellValue

open Cert.KernelIdeal Cert.KernelIdeal.Gen Idealize.ShloMosaic Idealize.ShloMosaic.TcCoe Idealize.SL.Sem Idealize.ShloMosaic.ValueIdx
open Cert.Cell

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-- The stored cell-state block at (p, q), over the blocks the body loaded. -/
theorem cell_block (c : FVec Ideal S512x256 .f32) (x h : FVec Ideal S512x2048 .bf16) (wf wi wc : FVec Ideal S4096x256 .bf16)
    (bf bi bc : FVec Ideal S1x256 .f32) (p : Fin 512) (q : Fin 256) :
    k0_pay1 (F := Ideal) c (k0_pay5 x h wf bf) (k0_pay6 x h wi bi) (k0_pay7 x h wc) bc (ix2 p q)
      = c (ix2 p q) * Ideal.logistic (preact x h wf p q + bf (ix2 (0 : Fin 1) q))
        + Ideal.logistic (preact x h wi p q + bi (ix2 (0 : Fin 1) q)) * Ideal.tanh (preact x h wc p q + bc (ix2 (0 : Fin 1) q)) := by
  unfold k0_pay1
  rw [addf_apply, mulf_apply, mulf_apply, logistic_at, logistic_at, tanh_at, addf_apply, pay5_apply, pay6_apply, pay7_apply, bias_row]

/-- The stored hidden-state block at (p, q). -/
theorem hidden_block (c : FVec Ideal S512x256 .f32) (x h : FVec Ideal S512x2048 .bf16) (wf wi wc wo : FVec Ideal S4096x256 .bf16)
    (bf bi bc bo : FVec Ideal S1x256 .f32) (p : Fin 512) (q : Fin 256) :
    k0_pay2 (F := Ideal) (k0_pay3 x) (k0_pay4 h) c (k0_pay5 x h wf bf) (k0_pay6 x h wi bi) (k0_pay7 x h wc) bc wo bo (ix2 p q)
      = Ideal.logistic (preact x h wo p q + bo (ix2 (0 : Fin 1) q))
        * Ideal.tanh (k0_pay1 (F := Ideal) c (k0_pay5 x h wf bf) (k0_pay6 x h wi bi) (k0_pay7 x h wc) bc (ix2 p q)) := by
  unfold k0_pay2 k0_pay3 k0_pay4
  rw [mulf_apply, logistic_at, tanh_at, addf_apply, two_products, bias_row]

/-- A pre-activation block element is the gate's pre-activation of the whole arrays, when the loaded blocks are the
    row of x and h and the column of the weights and bias it depends on. -/
theorem preact_eq_gate (x h : FVec Ideal S512x2048 .bf16) (w : FVec Ideal S4096x256 .bf16) (b : FVec Ideal S1x256 .f32)
    (p : Fin 512) (q : Fin 256) (X H : SAct.Idx → EReal) (W : SWgt.Idx → EReal) (B : SBias.Idx → EReal) (r : Fin 8192) (n : Fin 2048)
    (hx : ∀ k : Fin 2048, x (ix2 p k) = X (ix2 r k)) (hh : ∀ k : Fin 2048, h (ix2 p k) = H (ix2 r k))
    (hw : ∀ k : Fin 4096, w (ix2 k q) = W (ix2 k n)) (hb : b (ix2 (0 : Fin 1) q) = B (ix1 n)) :
    preact x h w p q + b (ix2 (0 : Fin 1) q) = gate X H W B r n := by
  unfold preact gate
  simp only [hx, hh, hw, hb]

/-- The stored cell-state element is the cell state of the whole arrays at (r, n). -/
theorem cell_block_eq (c : FVec Ideal S512x256 .f32) (x h : FVec Ideal S512x2048 .bf16) (wf wi wc : FVec Ideal S4096x256 .bf16)
    (bf bi bc : FVec Ideal S1x256 .f32) (p : Fin 512) (q : Fin 256)
    (X H C : SAct.Idx → EReal) (Wf Wi Wc : SWgt.Idx → EReal) (Bf Bi Bc : SBias.Idx → EReal) (r : Fin 8192) (n : Fin 2048)
    (hx : ∀ k : Fin 2048, x (ix2 p k) = X (ix2 r k)) (hh : ∀ k : Fin 2048, h (ix2 p k) = H (ix2 r k))
    (hc : c (ix2 p q) = C (ix2 r n))
    (hwf : ∀ k : Fin 4096, wf (ix2 k q) = Wf (ix2 k n)) (hwi : ∀ k : Fin 4096, wi (ix2 k q) = Wi (ix2 k n))
    (hwc : ∀ k : Fin 4096, wc (ix2 k q) = Wc (ix2 k n))
    (hbf : bf (ix2 (0 : Fin 1) q) = Bf (ix1 n)) (hbi : bi (ix2 (0 : Fin 1) q) = Bi (ix1 n)) (hbc : bc (ix2 (0 : Fin 1) q) = Bc (ix1 n)) :
    k0_pay1 (F := Ideal) c (k0_pay5 x h wf bf) (k0_pay6 x h wi bi) (k0_pay7 x h wc) bc (ix2 p q)
      = cellState X H C Wf Wi Wc Bf Bi Bc (ix2 r n) := by
  rw [cell_block, cellState_at, hc, preact_eq_gate x h wf bf p q X H Wf Bf r n hx hh hwf hbf,
    preact_eq_gate x h wi bi p q X H Wi Bi r n hx hh hwi hbi, preact_eq_gate x h wc bc p q X H Wc Bc r n hx hh hwc hbc]

/-- The stored hidden-state element is the hidden state of the whole arrays at (r, n). -/
theorem hidden_block_eq (c : FVec Ideal S512x256 .f32) (x h : FVec Ideal S512x2048 .bf16) (wf wi wc wo : FVec Ideal S4096x256 .bf16)
    (bf bi bc bo : FVec Ideal S1x256 .f32) (p : Fin 512) (q : Fin 256)
    (X H C : SAct.Idx → EReal) (Wf Wi Wc Wo : SWgt.Idx → EReal) (Bf Bi Bc Bo : SBias.Idx → EReal) (r : Fin 8192) (n : Fin 2048)
    (hx : ∀ k : Fin 2048, x (ix2 p k) = X (ix2 r k)) (hh : ∀ k : Fin 2048, h (ix2 p k) = H (ix2 r k))
    (hc : c (ix2 p q) = C (ix2 r n))
    (hwf : ∀ k : Fin 4096, wf (ix2 k q) = Wf (ix2 k n)) (hwi : ∀ k : Fin 4096, wi (ix2 k q) = Wi (ix2 k n))
    (hwc : ∀ k : Fin 4096, wc (ix2 k q) = Wc (ix2 k n)) (hwo : ∀ k : Fin 4096, wo (ix2 k q) = Wo (ix2 k n))
    (hbf : bf (ix2 (0 : Fin 1) q) = Bf (ix1 n)) (hbi : bi (ix2 (0 : Fin 1) q) = Bi (ix1 n)) (hbc : bc (ix2 (0 : Fin 1) q) = Bc (ix1 n))
    (hbo : bo (ix2 (0 : Fin 1) q) = Bo (ix1 n)) :
    k0_pay2 (F := Ideal) (k0_pay3 x) (k0_pay4 h) c (k0_pay5 x h wf bf) (k0_pay6 x h wi bi) (k0_pay7 x h wc) bc wo bo (ix2 p q)
      = hidden X H C Wf Wi Wc Wo Bf Bi Bc Bo (ix2 r n) := by
  rw [hidden_block, hidden_at, preact_eq_gate x h wo bo p q X H Wo Bo r n hx hh hwo hbo,
    cell_block_eq c x h wf wi wc bf bi bc p q X H C Wf Wi Wc Bf Bi Bc r n hx hh hc hwf hwi hwc hbf hbi hbc]

end Cert.KernelIdeal.CellValue

end
-- ==== Proof.KernelArray.lean ====
/-
  From the output blocks to the two result arrays.

  The grid is (j, i), j over the 8 column tiles of width 256 and i over the 16 batch tiles of height 512. At a point
  the x and h windows hold rows 512·i … of the (narrowed) inputs, the c window and both output windows the tile (i, j),
  each weight window the columns 256·j … of its matrix and each bias window the same columns of its row. The arrays
  the region finds are the arguments themselves: narrowing to the short float format is the identity on extended
  reals, and the bias is only re-laid as one row. So what a point writes back is the tile (i, j) of the cell's two
  functions of the arguments; the 128 tiles cover [8192, 2048], so the result arrays are those functions.
-/
import proofs.«113594_j28845000360212_1_alg».proof.Proof.Gen.KernelIdeal.Value
import proofs.«113594_j28845000360212_1_alg».proof.Proof.KernelBlock
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.CellValue

open Cert.KernelIdeal Cert.KernelIdeal.Gen Idealize.ShloMosaic Idealize.ShloMosaic.TcCoe Idealize.SL.Sem Idealize.ShloMosaic.ValueIdx
open Idealize.ShloMosaic.Pipeline (Dat)
open Cert.Cell

variable (m : (ℓ : Loc nD τ sig) → Buf (Elt Ideal) ℓ) (ρ : Dev nD → PrngReg)

/-! ## The arguments, at their literal types -/

abbrev argX (c : Dev nD) : SAct.Idx → EReal := m ((c : Thread nD τ).loc main_arg0)
abbrev argH (c : Dev nD) : SAct.Idx → EReal := m ((c : Thread nD τ).loc main_arg1)
abbrev argC (c : Dev nD) : SAct.Idx → EReal := m ((c : Thread nD τ).loc main_arg2)
abbrev argWf (c : Dev nD) : SWgt.Idx → EReal := m ((c : Thread nD τ).loc main_arg4)
abbrev argWi (c : Dev nD) : SWgt.Idx → EReal := m ((c : Thread nD τ).loc main_arg5)
abbrev argWc (c : Dev nD) : SWgt.Idx → EReal := m ((c : Thread nD τ).loc main_arg6)
abbrev argWo (c : Dev nD) : SWgt.Idx → EReal := m ((c : Thread nD τ).loc main_arg7)
abbrev argBf (c : Dev nD) : SBias.Idx → EReal := m ((c : Thread nD τ).loc main_arg8)
abbrev argBi (c : Dev nD) : SBias.Idx → EReal := m ((c : Thread nD τ).loc main_arg9)
abbrev argBc (c : Dev nD) : SBias.Idx → EReal := m ((c : Thread nD τ).loc main_arg10)
abbrev argBo (c : Dev nD) : SBias.Idx → EReal := m ((c : Thread nD τ).loc main_arg11)

/-- The new cell state of the arguments. -/
abbrev cellArr (c : Dev nD) : SAct.Idx → EReal :=
  cellState (argX m c) (argH m c) (argC m c) (argWf m c) (argWi m c) (argWc m c) (argBf m c) (argBi m c) (argBc m c)
/-- The new hidden state of the arguments. -/
abbrev hiddenArr (c : Dev nD) : SAct.Idx → EReal :=
  hidden (argX m c) (argH m c) (argC m c) (argWf m c) (argWi m c) (argWc m c) (argWo m c) (argBf m c) (argBi m c) (argBc m c) (argBo m c)

/-! ## The arrays the region finds -/

theorem found_x (c : Dev nD) : (V m c main_v0 : S8192x2048.Idx → EReal) = argX m c := by
  dsimp only [Gen.V, Gen.hostOps0]; after_results <;> rfl
theorem found_h (c : Dev nD) : (V m c main_v1 : S8192x2048.Idx → EReal) = argH m c := by
  dsimp only [Gen.V, Gen.hostOps0]; after_results <;> rfl
theorem found_wf (c : Dev nD) : (V m c main_v2 : S4096x2048.Idx → EReal) = argWf m c := by
  dsimp only [Gen.V, Gen.hostOps0]; after_results <;> rfl
theorem found_wi (c : Dev nD) : (V m c main_v3 : S4096x2048.Idx → EReal) = argWi m c := by
  dsimp only [Gen.V, Gen.hostOps0]; after_results <;> rfl
theorem found_wc (c : Dev nD) : (V m c main_v4 : S4096x2048.Idx → EReal) = argWc m c := by
  dsimp only [Gen.V, Gen.hostOps0]; after_results <;> rfl
theorem found_wo (c : Dev nD) : (V m c main_v5 : S4096x2048.Idx → EReal) = argWo m c := by
  dsimp only [Gen.V, Gen.hostOps0]; after_results <;> rfl
theorem found_c (c : Dev nD) : (V m c main_arg2 : S8192x2048.Idx → EReal) = argC m c := V_main_arg2 m c

theorem found_bf (c : Dev nD) (n : Fin 2048) : (V m c main_v6 : S1x2048.Idx → EReal) (ix2 (0 : Fin 1) n) = argBf m c (ix1 n) := by
  have e : (V m c main_v6 : S1x2048.Idx → EReal) = shapeCast S1x2048 (argBf m c) shapeCasts_S2048_S1x2048 := by
    dsimp only [Gen.V, Gen.hostOps0]; after_results <;> rfl
  rw [e]; exact shapeCast_a_1a_apply _ _ 0 n
theorem found_bi (c : Dev nD) (n : Fin 2048) : (V m c main_v7 : S1x2048.Idx → EReal) (ix2 (0 : Fin 1) n) = argBi m c (ix1 n) := by
  have e : (V m c main_v7 : S1x2048.Idx → EReal) = shapeCast S1x2048 (argBi m c) shapeCasts_S2048_S1x2048 := by
    dsimp only [Gen.V, Gen.hostOps0]; after_results <;> rfl
  rw [e]; exact shapeCast_a_1a_apply _ _ 0 n
theorem found_bc (c : Dev nD) (n : Fin 2048) : (V m c main_v8 : S1x2048.Idx → EReal) (ix2 (0 : Fin 1) n) = argBc m c (ix1 n) := by
  have e : (V m c main_v8 : S1x2048.Idx → EReal) = shapeCast S1x2048 (argBc m c) shapeCasts_S2048_S1x2048 := by
    dsimp only [Gen.V, Gen.hostOps0]; after_results <;> rfl
  rw [e]; exact shapeCast_a_1a_apply _ _ 0 n
theorem found_bo (c : Dev nD) (n : Fin 2048) : (V m c main_v9 : S1x2048.Idx → EReal) (ix2 (0 : Fin 1) n) = argBo m c (ix1 n) := by
  have e : (V m c main_v9 : S1x2048.Idx → EReal) = shapeCast S1x2048 (argBo m c) shapeCasts_S2048_S1x2048 := by
    dsimp only [Gen.V, Gen.hostOps0]; after_results <;> rfl
  rw [e]; exact shapeCast_a_1a_apply _ _ 0 n

/-! ## The index maps over the grid -/

/-- The batch windows follow the output tile's row block and sit at column block 0; the c window and the other
    output window are on the output tile; the tile's block indices are within 16 × 8. -/
theorem idx_act : ∀ t : Fin cfg0.N,
    win0_0.index t (0 : Fin 2) = win0_12.index t (0 : Fin 2) ∧ win0_0.index t (1 : Fin 2) = 0
    ∧ win0_1.index t (0 : Fin 2) = win0_12.index t (0 : Fin 2) ∧ win0_1.index t (1 : Fin 2) = 0
    ∧ win0_2.index t (0 : Fin 2) = win0_12.index t (0 : Fin 2) ∧ win0_2.index t (1 : Fin 2) = win0_12.index t (1 : Fin 2)
    ∧ win0_11.index t (0 : Fin 2) = win0_12.index t (0 : Fin 2) ∧ win0_11.index t (1 : Fin 2) = win0_12.index t (1 : Fin 2)
    ∧ win0_12.index t (0 : Fin 2) ≤ 15 ∧ win0_12.index t (1 : Fin 2) ≤ 7 :=
  (by decide +kernel : ∀ t : Fin grid0.N, _)

/-- The weight windows sit at row block 0 and follow the output tile's column block. -/
theorem idx_wgt : ∀ t : Fin cfg0.N,
    win0_3.index t (0 : Fin 2) = 0 ∧ win0_3.index t (1 : Fin 2) = win0_12.index t (1 : Fin 2)
    ∧ win0_4.index t (0 : Fin 2) = 0 ∧ win0_4.index t (1 : Fin 2) = win0_12.index t (1 : Fin 2)
    ∧ win0_5.index t (0 : Fin 2) = 0 ∧ win0_5.index t (1 : Fin 2) = win0_12.index t (1 : Fin 2)
    ∧ win0_6.index t (0 : Fin 2) = 0 ∧ win0_6.index t (1 : Fin 2) = win0_12.index t (1 : Fin 2) :=
  (by decide +kernel : ∀ t : Fin grid0.N, _)

/-- So do the bias windows. -/
theorem idx_bias : ∀ t : Fin cfg0.N,
    win0_7.index t (0 : Fin 2) = 0 ∧ win0_7.index t (1 : Fin 2) = win0_12.index t (1 : Fin 2)
    ∧ win0_8.index t (0 : Fin 2) = 0 ∧ win0_8.index t (1 : Fin 2) = win0_12.index t (1 : Fin 2)
    ∧ win0_9.index t (0 : Fin 2) = 0 ∧ win0_9.index t (1 : Fin 2) = win0_12.index t (1 : Fin 2)
    ∧ win0_10.index t (0 : Fin 2) = 0 ∧ win0_10.index t (1 : Fin 2) = win0_12.index t (1 : Fin 2) :=
  (by decide +kernel : ∀ t : Fin grid0.N, _)

/-- Every tile of the 16 × 8 tiling is some point's. -/
theorem idx_onto : ∀ (q0 : Fin 16) (q1 : Fin 8), ∃ t : Fin cfg0.N, win0_12.index t = ![q0.val, q1.val] :=
  (by decide +kernel : ∀ (q0 : Fin 16) (q1 : Fin 8), ∃ t : Fin grid0.N, win0_12.index t = ![q0.val, q1.val])

/-! ## The input blocks at a point, read off the arguments -/

theorem xblk_at (c : Dev nD) (t : Fin cfg0.N) (p : Fin 512) (k : Fin 2048) (r : Fin 8192)
    (hr : r.val = win0_12.index t (0 : Fin 2) * 512 + p.val) :
    (iblk m c 0 t : FVec Ideal S512x2048 .bf16) (ix2 p k) = argX m c (ix2 r k) := by
  obtain ⟨e0, e1, -⟩ := idx_act t
  unfold iblk
  rw [View.read_apply]
  refine (congrFun (found_x m c) _).trans (congrArg (argX m c) (funext fun a => Fin.ext ?_))
  match a with
  | ⟨0, _⟩ => show win0_0.index t (0 : Fin 2) * 512 + 1 * p.val = r.val; omega
  | ⟨1, _⟩ => show win0_0.index t (1 : Fin 2) * 2048 + 1 * k.val = k.val; omega

theorem hblk_at (c : Dev nD) (t : Fin cfg0.N) (p : Fin 512) (k : Fin 2048) (r : Fin 8192)
    (hr : r.val = win0_12.index t (0 : Fin 2) * 512 + p.val) :
    (iblk m c 1 t : FVec Ideal S512x2048 .bf16) (ix2 p k) = argH m c (ix2 r k) := by
  obtain ⟨-, -, e0, e1, -⟩ := idx_act t
  unfold iblk
  rw [View.read_apply]
  refine (congrFun (found_h m c) _).trans (congrArg (argH m c) (funext fun a => Fin.ext ?_))
  match a with
  | ⟨0, _⟩ => show win0_1.index t (0 : Fin 2) * 512 + 1 * p.val = r.val; omega
  | ⟨1, _⟩ => show win0_1.index t (1 : Fin 2) * 2048 + 1 * k.val = k.val; omega

theorem cblk_at (c : Dev nD) (t : Fin cfg0.N) (p : Fin 512) (q : Fin 256) (r : Fin 8192) (n : Fin 2048)
    (hr : r.val = win0_12.index t (0 : Fin 2) * 512 + p.val) (hn : n.val = win0_12.index t (1 : Fin 2) * 256 + q.val) :
    (iblk m c 2 t : FVec Ideal S512x256 .f32) (ix2 p q) = argC m c (ix2 r n) := by
  obtain ⟨-, -, -, -, e0, e1, -⟩ := idx_act t
  unfold iblk
  rw [View.read_apply]
  refine (congrFun (found_c m c) _).trans (congrArg (argC m c) (funext fun a => Fin.ext ?_))
  match a with
  | ⟨0, _⟩ => show win0_2.index t (0 : Fin 2) * 512 + 1 * p.val = r.val; omega
  | ⟨1, _⟩ => show win0_2.index t (1 : Fin 2) * 256 + 1 * q.val = n.val; omega

theorem wfblk_at (c : Dev nD) (t : Fin cfg0.N) (k : Fin 4096) (q : Fin 256) (n : Fin 2048)
    (hn : n.val = win0_12.index t (1 : Fin 2) * 256 + q.val) :
    (iblk m c 3 t : FVec Ideal S4096x256 .bf16) (ix2 k q) = argWf m c (ix2 k n) := by
  obtain ⟨e0, e1, -⟩ := idx_wgt t
  unfold iblk
  rw [View.read_apply]
  refine (congrFun (found_wf m c) _).trans (congrArg (argWf m c) (funext fun a => Fin.ext ?_))
  match a with
  | ⟨0, _⟩ => show win0_3.index t (0 : Fin 2) * 4096 + 1 * k.val = k.val; omega
  | ⟨1, _⟩ => show win0_3.index t (1 : Fin 2) * 256 + 1 * q.val = n.val; omega

theorem wiblk_at (c : Dev nD) (t : Fin cfg0.N) (k : Fin 4096) (q : Fin 256) (n : Fin 2048)
    (hn : n.val = win0_12.index t (1 : Fin 2) * 256 + q.val) :
    (iblk m c 4 t : FVec Ideal S4096x256 .bf16) (ix2 k q) = argWi m c (ix2 k n) := by
  obtain ⟨-, -, e0, e1, -⟩ := idx_wgt t
  unfold iblk
  rw [View.read_apply]
  refine (congrFun (found_wi m c) _).trans (congrArg (argWi m c) (funext fun a => Fin.ext ?_))
  match a with
  | ⟨0, _⟩ => show win0_4.index t (0 : Fin 2) * 4096 + 1 * k.val = k.val; omega
  | ⟨1, _⟩ => show win0_4.index t (1 : Fin 2) * 256 + 1 * q.val = n.val; omega

theorem wcblk_at (c : Dev nD) (t : Fin cfg0.N) (k : Fin 4096) (q : Fin 256) (n : Fin 2048)
    (hn : n.val = win0_12.index t (1 : Fin 2) * 256 + q.val) :
    (iblk m c 5 t : FVec Ideal S4096x256 .bf16) (ix2 k q) = argWc m c (ix2 k n) := by
  obtain ⟨-, -, -, -, e0, e1, -⟩ := idx_wgt t
  unfold iblk
  rw [View.read_apply]
  refine (congrFun (found_wc m c) _).trans (congrArg (argWc m c) (funext fun a => Fin.ext ?_))
  match a with
  | ⟨0, _⟩ => show win0_5.index t (0 : Fin 2) * 4096 + 1 * k.val = k.val; omega
  | ⟨1, _⟩ => show win0_5.index t (1 : Fin 2) * 256 + 1 * q.val = n.val; omega

theorem woblk_at (c : Dev nD) (t : Fin cfg0.N) (k : Fin 4096) (q : Fin 256) (n : Fin 2048)
    (hn : n.val = win0_12.index t (1 : Fin 2) * 256 + q.val) :
    (iblk m c 6 t : FVec Ideal S4096x256 .bf16) (ix2 k q) = argWo m c (ix2 k n) := by
  obtain ⟨-, -, -, -, -, -, e0, e1⟩ := idx_wgt t
  unfold iblk
  rw [View.read_apply]
  refine (congrFun (found_wo m c) _).trans (congrArg (argWo m c) (funext fun a => Fin.ext ?_))
  match a with
  | ⟨0, _⟩ => show win0_6.index t (0 : Fin 2) * 4096 + 1 * k.val = k.val; omega
  | ⟨1, _⟩ => show win0_6.index t (1 : Fin 2) * 256 + 1 * q.val = n.val; omega

/-- A bias window's block at (0, q) is the re-laid bias row at (0, n). -/
theorem bias_emb (t : Fin cfg0.N) (w : Fin cfg0.W) (q : Fin 256) (n : Fin 2048) (i0 i1 : Nat)
    (h0 : i0 = 0) (h1 : i1 = win0_12.index t (1 : Fin 2)) (hn : n.val = win0_12.index t (1 : Fin 2) * 256 + q.val)
    (j : S1x2048.Idx) (hj0 : (j 0).val = i0 * 1 + 1 * 0) (hj1 : (j 1).val = i1 * 256 + 1 * q.val) :
    j = ix2 (0 : Fin 1) n := by
  funext a; apply Fin.ext
  match a with
  | ⟨0, _⟩ => show (j 0).val = 0; omega
  | ⟨1, _⟩ => show (j 1).val = n.val; omega

theorem bfblk_at (c : Dev nD) (t : Fin cfg0.N) (q : Fin 256) (n : Fin 2048)
    (hn : n.val = win0_12.index t (1 : Fin 2) * 256 + q.val) :
    (iblk m c 7 t : FVec Ideal S1x256 .f32) (ix2 (0 : Fin 1) q) = argBf m c (ix1 n) := by
  obtain ⟨e0, e1, -⟩ := idx_bias t
  unfold iblk
  rw [View.read_apply]
  refine (congrArg (V m c main_v6 : S1x2048.Idx → EReal) ?_).trans (found_bf m c n)
  exact bias_emb t 7 q n _ _ e0 e1 hn _ rfl rfl

theorem biblk_at (c : Dev nD) (t : Fin cfg0.N) (q : Fin 256) (n : Fin 2048)
    (hn : n.val = win0_12.index t (1 : Fin 2) * 256 + q.val) :
    (iblk m c 8 t : FVec Ideal S1x256 .f32) (ix2 (0 : Fin 1) q) = argBi m c (ix1 n) := by
  obtain ⟨-, -, e0, e1, -⟩ := idx_bias t
  unfold iblk
  rw [View.read_apply]
  refine (congrArg (V m c main_v7 : S1x2048.Idx → EReal) ?_).trans (found_bi m c n)
  exact bias_emb t 8 q n _ _ e0 e1 hn _ rfl rfl

theorem bcblk_at (c : Dev nD) (t : Fin cfg0.N) (q : Fin 256) (n : Fin 2048)
    (hn : n.val = win0_12.index t (1 : Fin 2) * 256 + q.val) :
    (iblk m c 9 t : FVec Ideal S1x256 .f32) (ix2 (0 : Fin 1) q) = argBc m c (ix1 n) := by
  obtain ⟨-, -, -, -, e0, e1, -⟩ := idx_bias t
  unfold iblk
  rw [View.read_apply]
  refine (congrArg (V m c main_v8 : S1x2048.Idx → EReal) ?_).trans (found_bc m c n)
  exact bias_emb t 9 q n _ _ e0 e1 hn _ rfl rfl

theorem boblk_at (c : Dev nD) (t : Fin cfg0.N) (q : Fin 256) (n : Fin 2048)
    (hn : n.val = win0_12.index t (1 : Fin 2) * 256 + q.val) :
    (iblk m c 10 t : FVec Ideal S1x256 .f32) (ix2 (0 : Fin 1) q) = argBo m c (ix1 n) := by
  obtain ⟨-, -, -, -, -, -, e0, e1⟩ := idx_bias t
  unfold iblk
  rw [View.read_apply]
  refine (congrArg (V m c main_v9 : S1x2048.Idx → EReal) ?_).trans (found_bo m c n)
  exact bias_emb t 10 q n _ _ e0 e1 hn _ rfl rfl

/-! ## What a point writes back -/

theorem zero_off : (![0, 0] : Fin 2 → Nat) = fun _ => 0 := funext fun a => by fin_cases a <;> rfl

/-- Point `t` writes back its tile of the new cell state. -/
theorem flushed_cell (c : Dev nD) (t : Fin cfg0.N) :
    (dats m 0 c).flushed 12 t = ((cfg0.win 12).blk t).view.read (Elt Ideal) (cellArr m c) := by
  rw [Value.flushed12]
  unfold out0_12
  rw [View.canon_unit_zero zero_off]
  simp only [View.ld_unit_zero (S := S512x2048) zero_off, View.ld_unit_zero (S := S512x256) zero_off,
    View.ld_unit_zero (S := S4096x256) zero_off, View.ld_unit_zero (S := S1x256) zero_off]
  funext y
  obtain ⟨p, q, rfl⟩ : ∃ (p : Fin 512) (q : Fin 256), y = ix2 p q := ⟨y 0, y 1, eq_ix2 y⟩
  obtain ⟨-, -, -, -, -, -, -, -, b0, b1⟩ := idx_act t
  have hp := p.isLt
  have hq := q.isLt
  let r : Fin 8192 := ⟨win0_12.index t (0 : Fin 2) * 512 + p.val, by omega⟩
  let n : Fin 2048 := ⟨win0_12.index t (1 : Fin 2) * 256 + q.val, by omega⟩
  have hemb : ((cfg0.win 12).blk t).view.emb (ix2 p q) = ix2 r n := by
    funext a; apply Fin.ext
    match a with
    | ⟨0, _⟩ => show win0_12.index t (0 : Fin 2) * 512 + 1 * p.val = win0_12.index t (0 : Fin 2) * 512 + p.val; omega
    | ⟨1, _⟩ => show win0_12.index t (1 : Fin 2) * 256 + 1 * q.val = win0_12.index t (1 : Fin 2) * 256 + q.val; omega
  refine (cell_block_eq (iblk m c 2 t) (iblk m c 0 t) (iblk m c 1 t) (iblk m c 3 t) (iblk m c 4 t) (iblk m c 5 t)
    (iblk m c 7 t) (iblk m c 8 t) (iblk m c 9 t) p q
    (argX m c) (argH m c) (argC m c) (argWf m c) (argWi m c) (argWc m c) (argBf m c) (argBi m c) (argBc m c) r n
    (fun k => xblk_at m c t p k r rfl) (fun k => hblk_at m c t p k r rfl) (cblk_at m c t p q r n rfl rfl)
    (fun k => wfblk_at m c t k q n rfl) (fun k => wiblk_at m c t k q n rfl) (fun k => wcblk_at m c t k q n rfl)
    (bfblk_at m c t q n rfl) (biblk_at m c t q n rfl) (bcblk_at m c t q n rfl)).trans ?_
  rw [View.read_apply, hemb]
  rfl

/-- Point `t` writes back its tile of the new hidden state. -/
theorem flushed_hidden (c : Dev nD) (t : Fin cfg0.N) :
    (dats m 0 c).flushed 11 t = ((cfg0.win 11).blk t).view.read (Elt Ideal) (hiddenArr m c) := by
  rw [Value.flushed11]
  unfold out0_11
  rw [View.canon_unit_zero zero_off]
  simp only [View.ld_unit_zero (S := S512x2048) zero_off, View.ld_unit_zero (S := S512x256) zero_off,
    View.ld_unit_zero (S := S4096x256) zero_off, View.ld_unit_zero (S := S1x256) zero_off]
  funext y
  obtain ⟨p, q, rfl⟩ : ∃ (p : Fin 512) (q : Fin 256), y = ix2 p q := ⟨y 0, y 1, eq_ix2 y⟩
  obtain ⟨-, -, -, -, -, -, o0, o1, b0, b1⟩ := idx_act t
  have hp := p.isLt
  have hq := q.isLt
  let r : Fin 8192 := ⟨win0_12.index t (0 : Fin 2) * 512 + p.val, by omega⟩
  let n : Fin 2048 := ⟨win0_12.index t (1 : Fin 2) * 256 + q.val, by omega⟩
  have hemb : ((cfg0.win 11).blk t).view.emb (ix2 p q) = ix2 r n := by
    funext a; apply Fin.ext
    match a with
    | ⟨0, _⟩ => show win0_11.index t (0 : Fin 2) * 512 + 1 * p.val = win0_12.index t (0 : Fin 2) * 512 + p.val; omega
    | ⟨1, _⟩ => show win0_11.index t (1 : Fin 2) * 256 + 1 * q.val = win0_12.index t (1 : Fin 2) * 256 + q.val; omega
  refine (hidden_block_eq (iblk m c 2 t) (iblk m c 0 t) (iblk m c 1 t) (iblk m c 3 t) (iblk m c 4 t) (iblk m c 5 t) (iblk m c 6 t)
    (iblk m c 7 t) (iblk m c 8 t) (iblk m c 9 t) (iblk m c 10 t) p q
    (argX m c) (argH m c) (argC m c) (argWf m c) (argWi m c) (argWc m c) (argWo m c) (argBf m c) (argBi m c) (argBc m c) (argBo m c) r n
    (fun k => xblk_at m c t p k r rfl) (fun k => hblk_at m c t p k r rfl) (cblk_at m c t p q r n rfl rfl)
    (fun k => wfblk_at m c t k q n rfl) (fun k => wiblk_at m c t k q n rfl) (fun k => wcblk_at m c t k q n rfl)
    (fun k => woblk_at m c t k q n rfl)
    (bfblk_at m c t q n rfl) (biblk_at m c t q n rfl) (bcblk_at m c t q n rfl) (boblk_at m c t q n rfl)).trans ?_
  rw [View.read_apply, hemb]
  rfl

/-! ## The tiles cover the arrays -/

theorem mem_tile (t : Fin cfg0.N) (i : S8192x2048.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v10_1).slice (win0_12.rect t)).set ↔ _
  rw [View.set_slice_whole, Rect.mem_set_unit]
  exact Iff.rfl

theorem mem_tile' (t : Fin cfg0.N) (i : S8192x2048.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v10_0).slice (win0_11.rect t)).set ↔ _
  rw [View.set_slice_whole, Rect.mem_set_unit]
  exact Iff.rfl

/-- Element (r, n) lies in the tile of the point whose output block index is (r / 512, n / 256). -/
theorem covered_cell (i : S8192x2048.Idx) : ∃ t : Fin cfg0.N, (cfg0.win 12).flush t = true ∧ i ∈ ((cfg0.win 12).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_12.index t (0 : Fin 2) = (i 0).val / 512 := congrFun ht 0
  have q1 : win0_12.index t (1 : Fin 2) = (i 1).val / 256 := congrFun ht 1
  refine ⟨t, flush0_12 t, ?_⟩
  rw [mem_tile]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 256 ≤ (i 1).val ∧ (i 1).val < win0_12.index t (1 : Fin 2) * 256 + 256; omega

theorem covered_hidden (i : S8192x2048.Idx) : ∃ t : Fin cfg0.N, (cfg0.win 11).flush t = true ∧ i ∈ ((cfg0.win 11).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_12.index t (0 : Fin 2) = (i 0).val / 512 := congrFun ht 0
  have q1 : win0_12.index t (1 : Fin 2) = (i 1).val / 256 := congrFun ht 1
  obtain ⟨-, -, -, -, -, -, o0, o1, -⟩ := idx_act t
  refine ⟨t, flush0_11 t, ?_⟩
  rw [mem_tile']
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 256 ≤ (i 1).val ∧ (i 1).val < win0_11.index t (1 : Fin 2) * 256 + 256; omega

/-! ## The result arrays, and the run -/

theorem final_cell (c : Dev nD) : (dats m 0 c).arrAt 12 cfg0.N = cellArr m c :=
  (dats m 0 c).arrAt_eq_of_cover 12 (cellArr m c) (fun t _ => flushed_cell m c t) covered_cell

theorem final_hidden (c : Dev nD) : (dats m 0 c).arrAt 11 cfg0.N = hiddenArr m c :=
  (dats m 0 c).arrAt_eq_of_cover 11 (hiddenArr m c) (fun t _ => flushed_hidden m c t) covered_hidden

/-- Every weakly fair execution of the idealized kernel ends with the hidden state and the cell state of its
    arguments in the two result arrays, the arguments unchanged. -/
theorem run : θ_run defs (onTc (τ := τ) (main (F := Ideal))) ⟨m, fun _ => 0, ρ⟩ fun r => ∀ c : Dev nD,
      r.2.mem ((c : Thread nD τ).loc main_v10_0) = hiddenArr m c
      ∧ r.2.mem ((c : Thread nD τ).loc main_v10_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final_hidden m c), (h c).2.1.trans (final_cell m c), (h c).2.2⟩)
    (Value.run_blocks m ρ)

end Cert.KernelIdeal.CellValue

end
-- ==== Proof.RefCell.lean ====
/-
  The reference's two results are the cell's functions of its arguments.

  The reference lays x and h side by side into [8192, 4096], the four weight matrices side by side into
  [4096, 8192] and the four biases end to end, takes ONE product plus the bias row, and slices the result into the
  four gates' pre-activations. Column g·2048 + n of the product contracts row r of the joined inputs against column n
  of weight matrix g: the sum over 4096 places splits at 2048 into the x part and the h part (`Cell.gate_eq_joined`).
  The reference spells σ(z) as 1 / (1 + e^(-z)), which is what σ is on the extended reals.
-/
import proofs.«113594_j28845000360212_1_alg».proof.Proof.Gen.ReferenceIdeal.Read
import proofs.«113594_j28845000360212_1_alg».proof.Proof.CellSpec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.CellValue

open Cert.ReferenceIdeal Cert.ReferenceIdeal.Gen Cert.ReferenceIdeal.Read Idealize.ShloMosaic Idealize.ShloMosaic.TcCoe Idealize.SL.Sem
open Idealize.ShloMosaic.ValueIdx
open Cert.Cell

/-! ## The joined arrays read at an index -/

/-- The first 2048 places of a row of x and h side by side are x's row. -/
theorem joined_upper (X H : FVec Ideal S8192x2048 .f32) (j : S8192x4096.Idx) (r : Fin 8192) (k : Fin 2048)
    (h0 : (j 0).val = r.val) (h1 : (j 1).val = (upper k).val) :
    concatenate S8192x4096 1 [⟨S8192x2048, X⟩, ⟨S8192x2048, H⟩] concatenates_S8192x2048_S8192x2048_S8192x4096_d1 j = X (ix2 r k) :=
  concatenate_apply_piece (1 : Fin S8192x4096.rank) [⟨S8192x2048, X⟩, ⟨S8192x2048, H⟩] concatenates_S8192x2048_S8192x2048_S8192x4096_d1 j 0 (by simp) S8192x2048 X rfl rfl 0 rfl (ix2 r k)
    (fun b hb => by
      match b with
      | ⟨0, _⟩ => exact h0.symm
      | ⟨1, _⟩ => exact absurd rfl hb)
    (by show 0 + k.val = (j 1).val; rw [h1]; show 0 + k.val = k.val; omega)

/-- The last 2048 places are h's row. -/
theorem joined_lower (X H : FVec Ideal S8192x2048 .f32) (j : S8192x4096.Idx) (r : Fin 8192) (k : Fin 2048)
    (h0 : (j 0).val = r.val) (h1 : (j 1).val = (lower k).val) :
    concatenate S8192x4096 1 [⟨S8192x2048, X⟩, ⟨S8192x2048, H⟩] concatenates_S8192x2048_S8192x2048_S8192x4096_d1 j = H (ix2 r k) :=
  concatenate_apply_piece (1 : Fin S8192x4096.rank) [⟨S8192x2048, X⟩, ⟨S8192x2048, H⟩] concatenates_S8192x2048_S8192x2048_S8192x4096_d1 j 1 (by simp) S8192x2048 H rfl rfl 2048 rfl (ix2 r k)
    (fun b hb => by
      match b with
      | ⟨0, _⟩ => exact h0.symm
      | ⟨1, _⟩ => exact absurd rfl hb)
    (by show 2048 + k.val = (j 1).val; rw [h1])

/-- Columns 0 … 2047 of the four weight matrices side by side are matrix 0's columns. -/
theorem wcat_0 (W0 W1 W2 W3 : FVec Ideal S4096x2048 .f32) (j : S4096x8192.Idx) (k : Fin 4096) (n : Fin 2048)
    (h0 : (j 0).val = k.val) (h1 : (j 1).val = n.val) :
    concatenate S4096x8192 1 [⟨S4096x2048, W0⟩, ⟨S4096x2048, W1⟩, ⟨S4096x2048, W2⟩, ⟨S4096x2048, W3⟩] concatenates_S4096x2048_S4096x2048_S4096x2048_S4096x2048_S4096x8192_d1 j = W0 (ix2 k n) :=
  concatenate_apply_piece (1 : Fin S4096x8192.rank) [⟨S4096x2048, W0⟩, ⟨S4096x2048, W1⟩, ⟨S4096x2048, W2⟩, ⟨S4096x2048, W3⟩] concatenates_S4096x2048_S4096x2048_S4096x2048_S4096x2048_S4096x8192_d1 j 0 (by simp) S4096x2048 W0 rfl rfl 0 rfl (ix2 k n)
    (fun b hb => by
      match b with
      | ⟨0, _⟩ => exact h0.symm
      | ⟨1, _⟩ => exact absurd rfl hb)
    (by show 0 + n.val = (j 1).val; omega)

/-- Columns 2048 … 4095 of the four weight matrices side by side are matrix 1's columns. -/
theorem wcat_1 (W0 W1 W2 W3 : FVec Ideal S4096x2048 .f32) (j : S4096x8192.Idx) (k : Fin 4096) (n : Fin 2048)
    (h0 : (j 0).val = k.val) (h1 : (j 1).val = 2048 + n.val) :
    concatenate S4096x8192 1 [⟨S4096x2048, W0⟩, ⟨S4096x2048, W1⟩, ⟨S4096x2048, W2⟩, ⟨S4096x2048, W3⟩] concatenates_S4096x2048_S4096x2048_S4096x2048_S4096x2048_S4096x8192_d1 j = W1 (ix2 k n) :=
  concatenate_apply_piece (1 : Fin S4096x8192.rank) [⟨S4096x2048, W0⟩, ⟨S4096x2048, W1⟩, ⟨S4096x2048, W2⟩, ⟨S4096x2048, W3⟩] concatenates_S4096x2048_S4096x2048_S4096x2048_S4096x2048_S4096x8192_d1 j 1 (by simp) S4096x2048 W1 rfl rfl 2048 rfl (ix2 k n)
    (fun b hb => by
      match b with
      | ⟨0, _⟩ => exact h0.symm
      | ⟨1, _⟩ => exact absurd rfl hb)
    h1.symm

/-- Columns 4096 … 6143 of the four weight matrices side by side are matrix 2's columns. -/
theorem wcat_2 (W0 W1 W2 W3 : FVec Ideal S4096x2048 .f32) (j : S4096x8192.Idx) (k : Fin 4096) (n : Fin 2048)
    (h0 : (j 0).val = k.val) (h1 : (j 1).val = 4096 + n.val) :
    concatenate S4096x8192 1 [⟨S4096x2048, W0⟩, ⟨S4096x2048, W1⟩, ⟨S4096x2048, W2⟩, ⟨S4096x2048, W3⟩] concatenates_S4096x2048_S4096x2048_S4096x2048_S4096x2048_S4096x8192_d1 j = W2 (ix2 k n) :=
  concatenate_apply_piece (1 : Fin S4096x8192.rank) [⟨S4096x2048, W0⟩, ⟨S4096x2048, W1⟩, ⟨S4096x2048, W2⟩, ⟨S4096x2048, W3⟩] concatenates_S4096x2048_S4096x2048_S4096x2048_S4096x2048_S4096x8192_d1 j 2 (by simp) S4096x2048 W2 rfl rfl 4096 rfl (ix2 k n)
    (fun b hb => by
      match b with
      | ⟨0, _⟩ => exact h0.symm
      | ⟨1, _⟩ => exact absurd rfl hb)
    h1.symm

/-- Columns 6144 … 8191 of the four weight matrices side by side are matrix 3's columns. -/
theorem wcat_3 (W0 W1 W2 W3 : FVec Ideal S4096x2048 .f32) (j : S4096x8192.Idx) (k : Fin 4096) (n : Fin 2048)
    (h0 : (j 0).val = k.val) (h1 : (j 1).val = 6144 + n.val) :
    concatenate S4096x8192 1 [⟨S4096x2048, W0⟩, ⟨S4096x2048, W1⟩, ⟨S4096x2048, W2⟩, ⟨S4096x2048, W3⟩] concatenates_S4096x2048_S4096x2048_S4096x2048_S4096x2048_S4096x8192_d1 j = W3 (ix2 k n) :=
  concatenate_apply_piece (1 : Fin S4096x8192.rank) [⟨S4096x2048, W0⟩, ⟨S4096x2048, W1⟩, ⟨S4096x2048, W2⟩, ⟨S4096x2048, W3⟩] concatenates_S4096x2048_S4096x2048_S4096x2048_S4096x2048_S4096x8192_d1 j 3 (by simp) S4096x2048 W3 rfl rfl 6144 rfl (ix2 k n)
    (fun b hb => by
      match b with
      | ⟨0, _⟩ => exact h0.symm
      | ⟨1, _⟩ => exact absurd rfl hb)
    h1.symm

/-- Places 0 … 2047 of the four biases end to end are bias 0. -/
theorem bcat_0 (b0 b1 b2 b3 : FVec Ideal S2048 .f32) (j : S8192.Idx) (n : Fin 2048) (h0 : (j 0).val = n.val) :
    concatenate S8192 0 [⟨S2048, b0⟩, ⟨S2048, b1⟩, ⟨S2048, b2⟩, ⟨S2048, b3⟩] concatenates_S2048_S2048_S2048_S2048_S8192_d0 j = b0 (ix1 n) :=
  concatenate_apply_piece (0 : Fin S8192.rank) [⟨S2048, b0⟩, ⟨S2048, b1⟩, ⟨S2048, b2⟩, ⟨S2048, b3⟩] concatenates_S2048_S2048_S2048_S2048_S8192_d0 j 0 (by simp) S2048 b0 rfl rfl 0 rfl (ix1 n)
    (fun b hb => by
      match b with
      | ⟨0, _⟩ => exact absurd rfl hb)
    (by show 0 + n.val = (j 0).val; omega)

/-- Places 2048 … 4095 of the four biases end to end are bias 1. -/
theorem bcat_1 (b0 b1 b2 b3 : FVec Ideal S2048 .f32) (j : S8192.Idx) (n : Fin 2048) (h0 : (j 0).val = 2048 + n.val) :
    concatenate S8192 0 [⟨S2048, b0⟩, ⟨S2048, b1⟩, ⟨S2048, b2⟩, ⟨S2048, b3⟩] concatenates_S2048_S2048_S2048_S2048_S8192_d0 j = b1 (ix1 n) :=
  concatenate_apply_piece (0 : Fin S8192.rank) [⟨S2048, b0⟩, ⟨S2048, b1⟩, ⟨S2048, b2⟩, ⟨S2048, b3⟩] concatenates_S2048_S2048_S2048_S2048_S8192_d0 j 1 (by simp) S2048 b1 rfl rfl 2048 rfl (ix1 n)
    (fun b hb => by
      match b with
      | ⟨0, _⟩ => exact absurd rfl hb)
    h0.symm

/-- Places 4096 … 6143 of the four biases end to end are bias 2. -/
theorem bcat_2 (b0 b1 b2 b3 : FVec Ideal S2048 .f32) (j : S8192.Idx) (n : Fin 2048) (h0 : (j 0).val = 4096 + n.val) :
    concatenate S8192 0 [⟨S2048, b0⟩, ⟨S2048, b1⟩, ⟨S2048, b2⟩, ⟨S2048, b3⟩] concatenates_S2048_S2048_S2048_S2048_S8192_d0 j = b2 (ix1 n) :=
  concatenate_apply_piece (0 : Fin S8192.rank) [⟨S2048, b0⟩, ⟨S2048, b1⟩, ⟨S2048, b2⟩, ⟨S2048, b3⟩] concatenates_S2048_S2048_S2048_S2048_S8192_d0 j 2 (by simp) S2048 b2 rfl rfl 4096 rfl (ix1 n)
    (fun b hb => by
      match b with
      | ⟨0, _⟩ => exact absurd rfl hb)
    h0.symm

/-- Places 6144 … 8191 of the four biases end to end are bias 3. -/
theorem bcat_3 (b0 b1 b2 b3 : FVec Ideal S2048 .f32) (j : S8192.Idx) (n : Fin 2048) (h0 : (j 0).val = 6144 + n.val) :
    concatenate S8192 0 [⟨S2048, b0⟩, ⟨S2048, b1⟩, ⟨S2048, b2⟩, ⟨S2048, b3⟩] concatenates_S2048_S2048_S2048_S2048_S8192_d0 j = b3 (ix1 n) :=
  concatenate_apply_piece (0 : Fin S8192.rank) [⟨S2048, b0⟩, ⟨S2048, b1⟩, ⟨S2048, b2⟩, ⟨S2048, b3⟩] concatenates_S2048_S2048_S2048_S2048_S8192_d0 j 3 (by simp) S2048 b3 rfl rfl 6144 rfl (ix1 n)
    (fun b hb => by
      match b with
      | ⟨0, _⟩ => exact absurd rfl hb)
    h0.symm

/-! ## The four slices of the fused pre-activation -/

/-- Slice 0 of the fused pre-activation, columns 0 …: gate f's pre-activation. -/
theorem pre_f (x0 x1 : FVec Ideal S8192x2048 .f32) (x4 x5 x6 x7 : FVec Ideal S4096x2048 .f32) (x8 x9 x10 x11 : FVec Ideal S2048 .f32)
    (r : Fin 8192) (n : Fin 2048) :
    val_main_v7 (F := Ideal) x0 x1 x4 x5 x6 x7 x8 x9 x10 x11 (ix2 r n) = gate x0 x1 x4 x8 r n := by
  rw [val_main_v7_apply, val_main_v6_apply, val_main_v3_apply, val_main_v5_apply, val_main_v4_apply]
  exact gate_eq_joined x0 x1 x4 x8 r n _ _
    (fun k => joined_upper x0 x1 _ r k rfl rfl) (fun k => joined_lower x0 x1 _ r k rfl rfl)
    (fun k => wcat_0 x4 x5 x6 x7 _ k n rfl rfl) _ (bcat_0 x8 x9 x10 x11 _ n rfl)

/-- Slice 1 of the fused pre-activation, columns 2048 …: gate i's pre-activation. -/
theorem pre_i (x0 x1 : FVec Ideal S8192x2048 .f32) (x4 x5 x6 x7 : FVec Ideal S4096x2048 .f32) (x8 x9 x10 x11 : FVec Ideal S2048 .f32)
    (r : Fin 8192) (n : Fin 2048) :
    val_main_v8 (F := Ideal) x0 x1 x4 x5 x6 x7 x8 x9 x10 x11 (ix2 r n) = gate x0 x1 x5 x9 r n := by
  rw [val_main_v8_apply, val_main_v6_apply, val_main_v3_apply, val_main_v5_apply, val_main_v4_apply]
  exact gate_eq_joined x0 x1 x5 x9 r n _ _
    (fun k => joined_upper x0 x1 _ r k rfl rfl) (fun k => joined_lower x0 x1 _ r k rfl rfl)
    (fun k => wcat_1 x4 x5 x6 x7 _ k n rfl rfl) _ (bcat_1 x8 x9 x10 x11 _ n rfl)

/-- Slice 2 of the fused pre-activation, columns 4096 …: gate c's pre-activation. -/
theorem pre_c (x0 x1 : FVec Ideal S8192x2048 .f32) (x4 x5 x6 x7 : FVec Ideal S4096x2048 .f32) (x8 x9 x10 x11 : FVec Ideal S2048 .f32)
    (r : Fin 8192) (n : Fin 2048) :
    val_main_v9 (F := Ideal) x0 x1 x4 x5 x6 x7 x8 x9 x10 x11 (ix2 r n) = gate x0 x1 x6 x10 r n := by
  rw [val_main_v9_apply, val_main_v6_apply, val_main_v3_apply, val_main_v5_apply, val_main_v4_apply]
  exact gate_eq_joined x0 x1 x6 x10 r n _ _
    (fun k => joined_upper x0 x1 _ r k rfl rfl) (fun k => joined_lower x0 x1 _ r k rfl rfl)
    (fun k => wcat_2 x4 x5 x6 x7 _ k n rfl rfl) _ (bcat_2 x8 x9 x10 x11 _ n rfl)

/-- Slice 3 of the fused pre-activation, columns 6144 …: gate o's pre-activation. -/
theorem pre_o (x0 x1 : FVec Ideal S8192x2048 .f32) (x4 x5 x6 x7 : FVec Ideal S4096x2048 .f32) (x8 x9 x10 x11 : FVec Ideal S2048 .f32)
    (r : Fin 8192) (n : Fin 2048) :
    val_main_v10 (F := Ideal) x0 x1 x4 x5 x6 x7 x8 x9 x10 x11 (ix2 r n) = gate x0 x1 x7 x11 r n := by
  rw [val_main_v10_apply, val_main_v6_apply, val_main_v3_apply, val_main_v5_apply, val_main_v4_apply]
  exact gate_eq_joined x0 x1 x7 x11 r n _ _
    (fun k => joined_upper x0 x1 _ r k rfl rfl) (fun k => joined_lower x0 x1 _ r k rfl rfl)
    (fun k => wcat_3 x4 x5 x6 x7 _ k n rfl rfl) _ (bcat_3 x8 x9 x10 x11 _ n rfl)

/-! ## The two results -/

/-- The reference's cell state is `Cell.cellState` of its arguments. -/
theorem cell_eq (x0 x1 x2 : FVec Ideal S8192x2048 .f32) (x4 x5 x6 x7 : FVec Ideal S4096x2048 .f32) (x8 x9 x10 x11 : FVec Ideal S2048 .f32) :
    val_main_v26 (F := Ideal) x0 x1 x2 x4 x5 x6 x7 x8 x9 x10 x11 = cellState x0 x1 x2 x4 x5 x6 x8 x9 x10 := by
  funext i
  obtain ⟨r, n, rfl⟩ : ∃ (r : Fin 8192) (n : Fin 2048), i = ix2 r n := ⟨i 0, i 1, eq_ix2 i⟩
  rw [val_main_v26_apply, val_main_v24_apply, val_main_v25_apply, val_main_v16_apply, val_main_v22_apply, val_main_v23_apply,
    val_main_v15_apply, val_main_v14_apply, val_main_v13_apply, val_main_v12_apply, val_main_v11_apply, val_main_cst_0_apply, val_main_cst_apply,
    val_main_v21_apply, val_main_v20_apply, val_main_v19_apply, val_main_v18_apply, val_main_v17_apply, val_main_cst_2_apply, val_main_cst_1_apply,
    pre_f, pre_i, pre_c, cellState_at]
  simp only [Ideal.ofBits_def, Ideal.ofBits_one_f32, Ideal.hostDivf_def, Ideal.addf_def, Ideal.mulf_def, Ideal.hostUnary_exp_def,
    Ideal.hostNegf_def, Ideal.negf_def, Ideal.hostUnary_tanh_def, logistic_spelled]

/-- The reference's hidden state is `Cell.hidden` of its arguments. -/
theorem hidden_eq (x0 x1 x2 : FVec Ideal S8192x2048 .f32) (x4 x5 x6 x7 : FVec Ideal S4096x2048 .f32) (x8 x9 x10 x11 : FVec Ideal S2048 .f32) :
    val_main_v34 (F := Ideal) x0 x1 x2 x4 x5 x6 x7 x8 x9 x10 x11 = hidden x0 x1 x2 x4 x5 x6 x7 x8 x9 x10 x11 := by
  funext i
  obtain ⟨r, n, rfl⟩ : ∃ (r : Fin 8192) (n : Fin 2048), i = ix2 r n := ⟨i 0, i 1, eq_ix2 i⟩
  rw [val_main_v34_apply, val_main_v33_apply, val_main_v32_apply, val_main_v31_apply, val_main_v30_apply, val_main_v29_apply,
    val_main_v28_apply, val_main_v27_apply, val_main_cst_4_apply, val_main_cst_3_apply, pre_o, cell_eq, hidden_at]
  simp only [Ideal.ofBits_def, Ideal.ofBits_one_f32, Ideal.hostDivf_def, Ideal.addf_def, Ideal.mulf_def, Ideal.hostUnary_exp_def,
    Ideal.hostNegf_def, Ideal.negf_def, Ideal.hostUnary_tanh_def, logistic_spelled]

end Cert.ReferenceIdeal.CellValue

end
-- ==== Proof.lean ====
/-
  An LSTM cell, tiled, against the fused reference: equal over the extended reals.

  The kernel computes, for every batch row r and hidden column n, the four gates' pre-activations
      z_g(r, n) = Σ_{k < 2048} x[r, k] · W_g[k, n] + Σ_{k < 2048} h[r, k] · W_g[2048 + k, n] + b_g[n]
  as two matrix products per gate, then  c' = c · σ(z_f) + σ(z_i) · tanh(z_c)  and  h' = σ(z_o) · tanh(c').
  It works on 512 × 256 output tiles over a grid of 8 column tiles by 16 row tiles; narrowing the operands to the
  short float format is the identity on extended reals. The reference joins x with h and the four weight matrices
  and biases, takes one product over 4096 places, and slices it into the four gates. The two agree because a sum
  over 4096 places is the sum of its two halves — addition on the extended reals is commutative and associative, so
  no finiteness of the inputs is used — and because the reference's 1 / (1 + e^(-z)) is σ(z).

  `Cell` (CellSpec) states the two results as functions of the arguments; KernelGate, KernelBlock and KernelArray
  read the kernel's tiles as those functions; RefCell reads the reference's stages as the same functions.
-/
import proofs.«113594_j28845000360212_1_alg».proof.Defs
import proofs.«113594_j28845000360212_1_alg».proof.Proof.Gen.Kernel
import proofs.«113594_j28845000360212_1_alg».proof.Proof.Gen.Kernel.Skeleton
import proofs.«113594_j28845000360212_1_alg».proof.Proof.Gen.Kernel.Launch
import proofs.«113594_j28845000360212_1_alg».proof.Proof.Gen.Kernel.Points
import proofs.«113594_j28845000360212_1_alg».proof.Proof.Gen.Kernel.Frame
import proofs.«113594_j28845000360212_1_alg».proof.Proof.Gen.KernelIdeal
import proofs.«113594_j28845000360212_1_alg».proof.Proof.Gen.KernelIdeal.Skeleton
import proofs.«113594_j28845000360212_1_alg».proof.Proof.Gen.KernelIdeal.Launch
import proofs.«113594_j28845000360212_1_alg».proof.Proof.Gen.KernelIdeal.Points
import proofs.«113594_j28845000360212_1_alg».proof.Proof.Gen.KernelIdeal.Frame
import proofs.«113594_j28845000360212_1_alg».proof.Proof.Gen.ReferenceIdeal
import proofs.«113594_j28845000360212_1_alg».proof.Proof.Gen.Pre_finite_inputs
import proofs.«113594_j28845000360212_1_alg».proof.Proof.Gen.KernelIdeal.Value
import proofs.«113594_j28845000360212_1_alg».proof.Proof.Gen.ReferenceIdeal.Run
import proofs.«113594_j28845000360212_1_alg».proof.Proof.Gen.ReferenceIdeal.Read
import proofs.«113594_j28845000360212_1_alg».proof.Proof.KernelArray
import proofs.«113594_j28845000360212_1_alg».proof.Proof.RefCell
import Idealize.ShloMosaic.Adequacy
import Idealize.ShloMosaic.Init

noncomputable section

namespace Cert.Proof

open Idealize.ShloMosaic Idealize.SL.Sem

/-- Both idealized programs end with the cell's hidden state and cell state of arguments that agree. -/
theorem algebraic : Cert.algebraic_KernelIdeal_ReferenceIdeal := by
  intro m ρ m' ρ' _ hagree
  refine ⟨fun c => Cert.KernelIdeal.CellValue.hiddenArr m c, fun c => Cert.KernelIdeal.CellValue.cellArr m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, -, a4, a5, a6, a7, a8, a9, a10, a11⟩ := hagree c
    rw [Cert.ReferenceIdeal.Read.val_main_v34_eq, Cert.ReferenceIdeal.CellValue.hidden_eq, a0, a1, a2, a4, a5, a6, a7, a8, a9, a10, a11]
  · obtain ⟨a0, a1, a2, -, a4, a5, a6, a7, a8, a9, a10, a11⟩ := hagree c
    refine (Cert.ReferenceIdeal.Read.val_main_v26_eq _ _ _ _ _ _ _ _ _ _ _).trans ?_
    rw [Cert.ReferenceIdeal.CellValue.cell_eq, a0, a1, a2, a4, a5, a6, a8, a9, a10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
